-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1880x1024 : Shape := ⟨2, ![1880, 1024]⟩
abbrev S1880 : Shape := ⟨1, ![1880]⟩
abbrev S16384x128 : Shape := ⟨2, ![16384, 128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1880x1024 : S_.BroadcastsInDim S1880x1024 (![] : Fin 0 → Fin S1880x1024.rank)
  reducesTo_S1880x1024_S_d0_1 : S1880x1024.ReducesTo [0, 1] S_
  bcast_S_S1880 : S_.BroadcastsInDim S1880 (![] : Fin 0 → Fin S1880.rank)
  reducesTo_S1880_S_d0 : S1880.ReducesTo [0] S_
  bcast_S_S16384x128 : S_.BroadcastsInDim S16384x128 (![] : Fin 0 → Fin S16384x128.rank)
  reducesTo_S16384x128_S_d0_1 : S16384x128.ReducesTo [0, 1] S_

variable [Facts]

def fn_part1 {F : FTy → Type} [FloatOps F] (main_arg3 : IVec S16384x128 32) (main_v13 : IVec S_ 1) (main_v15 : IVec S16384x128 1) (main_c_5 : IVec S_ 32) : IVec S_ 1 :=
  let main_v16 : IVec S16384x128 32 := broadcastInDim S16384x128 ![] bcast_S_S16384x128 main_c_5
  let main_v17 : IVec S16384x128 1 := cmpi .slt main_arg3 main_v16
  let main_v18 : IVec S16384x128 1 := andi main_v15 main_v17
  let main_c_6 : IVec S_ 1 := constantI S_ 1 1#1
  let main_v19 : IVec S_ 1 := (fun x v => Host.reduce IntOp.andi x v reducesTo_S16384x128_S_d0_1 h_S_) main_v18 main_c_6
  let main_v20 : IVec S_ 1 := andi main_v13 main_v19
  main_v20

def fn {F : FTy → Type} [FloatOps F] (main_arg0 : FVec F S16384x1024 .f32) (main_arg1 : FVec F S1880x1024 .f32) (main_arg2 : FVec F S1880 .f32) (main_arg3 : IVec S16384x128 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1880x1024 .f32 := Host.absf main_arg1
  let main_cst_0 : FVec F S_ .f32 := constant S_ .f32 0x7F800000#32
  let main_v5 : FVec F S1880x1024 .f32 := broadcastInDim S1880x1024 ![] bcast_S_S1880x1024 main_cst_0
  let main_v6 : IVec S1880x1024 1 := cmpf .olt main_v4 main_v5
  let main_c_1 : IVec S_ 1 := constantI S_ 1 1#1
  let main_v7 : IVec S_ 1 := (fun x v => Host.reduce IntOp.andi x v reducesTo_S1880x1024_S_d0_1 h_S_) main_v6 main_c_1
  let main_v8 : IVec S_ 1 := andi main_v3 main_v7
  let main_v9 : FVec F S1880 .f32 := Host.absf main_arg2
  let main_cst_2 : FVec F S_ .f32 := constant S_ .f32 0x7F800000#32
  let main_v10 : FVec F S1880 .f32 := broadcastInDim S1880 ![] bcast_S_S1880 main_cst_2
  let main_v11 : IVec S1880 1 := cmpf .olt main_v9 main_v10
  let main_c_3 : IVec S_ 1 := constantI S_ 1 1#1
  let main_v12 : IVec S_ 1 := (fun x v => Host.reduce IntOp.andi x v reducesTo_S1880_S_d0 h_S_) main_v11 main_c_3
  let main_v13 : IVec S_ 1 := andi main_v8 main_v12
  let main_c_4 : IVec S_ 32 := constantI S_ 32 0#32
  let main_v14 : IVec S16384x128 32 := broadcastInDim S16384x128 ![] bcast_S_S16384x128 main_c_4
  let main_v15 : IVec S16384x128 1 := cmpi .sge main_arg3 main_v14
  let main_c_5 : IVec S_ 32 := constantI S_ 32 1880#32
  fn_part1 (F := F) main_arg3 main_v13 main_v15 main_c_5
-- ==== Kernel.lean ====
abbrev S16384x1024 : Shape := ⟨2, ![16384, 1024]⟩
abbrev S1880x1024 : Shape := ⟨2, ![1880, 1024]⟩
abbrev S1880 : Shape := ⟨1, ![1880]⟩
abbrev S16384x128 : Shape := ⟨2, ![16384, 128]⟩
abbrev S256x1024 : Shape := ⟨2, ![256, 1024]⟩
abbrev S256x128 : Shape := ⟨2, ![256, 128]⟩
abbrev S1024x1880 : Shape := ⟨2, ![1024, 1880]⟩
abbrev S256x1880 : Shape := ⟨2, ![256, 1880]⟩
abbrev S1x1880 : Shape := ⟨2, ![1, 1880]⟩
abbrev S256x1 : Shape := ⟨2, ![256, 1]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1880x1024, .f32⟩
  | .hbm, ⟨2, _⟩ => ⟨S1880, .f32⟩
  | .hbm, ⟨3, _⟩ => ⟨S16384x128, .i32⟩
  | .hbm, ⟨4, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1880x1024, .f32⟩
  | .local _ .vmem, ⟨3, _⟩ => ⟨S1880, .f32⟩
  | .local _ .vmem, ⟨4, _⟩ => ⟨S256x128, .i32⟩
  | .local _ .vmem, ⟨5, _⟩ => ⟨S256x128, .i32⟩
  | .local _ .vmem, ⟨6, _⟩ => ⟨S256x128, .f32⟩
  | .local _ .vmem, ⟨7, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1880x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1880 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1880x1024_S1880x1024_0_0 : ∀ a, (![0, 0] : Fin 2 → Nat) a + S1880x1024.size a ≤ S1880x1024.size a
  h_S1880x1024 : 0 < S1880x1024.numel
  transposes_S1880x1024_p1_0_S1024x1880 : S1880x1024.Transposes [1, 0] S1024x1880
  inb_S1880_S1880_0 : ∀ a, (![0] : Fin 1 → Nat) a + S1880.size a ≤ S1880.size a
  h_S1880 : 0 < S1880.numel
  shapeCasts_S1880_S1x1880 : S1880.ShapeCasts S1x1880
  broadcasts_S1x1880_S256x1880 : S1x1880.Broadcasts S256x1880
  inb_S256x128_S256x128_0_0 : ∀ a, (![0, 0] : Fin 2 → Nat) a + S256x128.size a ≤ S256x128.size a
  h_S256x128 : 0 < S256x128.numel
  iota_S256x1880_d1_w32 : S256x1880.Iotas .tc 32 [1]
  slices_S256x128_o0_0_S256x1 : S256x128.Slices ![0, 0] S256x1
  broadcasts_S256x1_S256x1880 : S256x1.Broadcasts S256x1880
  reduces_S256x1880_S256 : S256x1880.Reduces [1] S256
  shapeCasts_S256_S256x1 : S256.ShapeCasts S256x1
  slices_S256x128_o0_1_S256x1 : S256x128.Slices ![0, 1] S256x1
  slices_S256x128_o0_2_S256x1 : S256x128.Slices ![0, 2] S256x1
  slices_S256x128_o0_3_S256x1 : S256x128.Slices ![0, 3] S256x1
  slices_S256x128_o0_4_S256x1 : S256x128.Slices ![0, 4] S256x1
  slices_S256x128_o0_5_S256x1 : S256x128.Slices ![0, 5] S256x1
  slices_S256x128_o0_6_S256x1 : S256x128.Slices ![0, 6] S256x1
  slices_S256x128_o0_7_S256x1 : S256x128.Slices ![0, 7] S256x1
  slices_S256x128_o0_8_S256x1 : S256x128.Slices ![0, 8] S256x1
  slices_S256x128_o0_9_S256x1 : S256x128.Slices ![0, 9] S256x1
  slices_S256x128_o0_10_S256x1 : S256x128.Slices ![0, 10] S256x1
  slices_S256x128_o0_11_S256x1 : S256x128.Slices ![0, 11] S256x1
  slices_S256x128_o0_12_S256x1 : S256x128.Slices ![0, 12] S256x1
  slices_S256x128_o0_13_S256x1 : S256x128.Slices ![0, 13] S256x1
  slices_S256x128_o0_14_S256x1 : S256x128.Slices ![0, 14] S256x1
  slices_S256x128_o0_15_S256x1 : S256x128.Slices ![0, 15] S256x1
  slices_S256x128_o0_16_S256x1 : S256x128.Slices ![0, 16] S256x1
  slices_S256x128_o0_17_S256x1 : S256x128.Slices ![0, 17] S256x1
  slices_S256x128_o0_18_S256x1 : S256x128.Slices ![0, 18] S256x1
  slices_S256x128_o0_19_S256x1 : S256x128.Slices ![0, 19] S256x1
  slices_S256x128_o0_20_S256x1 : S256x128.Slices ![0, 20] S256x1
  slices_S256x128_o0_21_S256x1 : S256x128.Slices ![0, 21] S256x1
  slices_S256x128_o0_22_S256x1 : S256x128.Slices ![0, 22] S256x1
  slices_S256x128_o0_23_S256x1 : S256x128.Slices ![0, 23] S256x1
  slices_S256x128_o0_24_S256x1 : S256x128.Slices ![0, 24] S256x1
  slices_S256x128_o0_25_S256x1 : S256x128.Slices ![0, 25] S256x1
  slices_S256x128_o0_26_S256x1 : S256x128.Slices ![0, 26] S256x1
  slices_S256x128_o0_27_S256x1 : S256x128.Slices ![0, 27] S256x1
  slices_S256x128_o0_28_S256x1 : S256x128.Slices ![0, 28] S256x1
  slices_S256x128_o0_29_S256x1 : S256x128.Slices ![0, 29] S256x1
  slices_S256x128_o0_30_S256x1 : S256x128.Slices ![0, 30] S256x1
  slices_S256x128_o0_31_S256x1 : S256x128.Slices ![0, 31] S256x1
  slices_S256x128_o0_32_S256x1 : S256x128.Slices ![0, 32] S256x1
  slices_S256x128_o0_33_S256x1 : S256x128.Slices ![0, 33] S256x1
  slices_S256x128_o0_34_S256x1 : S256x128.Slices ![0, 34] S256x1
  slices_S256x128_o0_35_S256x1 : S256x128.Slices ![0, 35] S256x1
  slices_S256x128_o0_36_S256x1 : S256x128.Slices ![0, 36] S256x1
  slices_S256x128_o0_37_S256x1 : S256x128.Slices ![0, 37] S256x1
  slices_S256x128_o0_38_S256x1 : S256x128.Slices ![0, 38] S256x1
  slices_S256x128_o0_39_S256x1 : S256x128.Slices ![0, 39] S256x1
  slices_S256x128_o0_40_S256x1 : S256x128.Slices ![0, 40] S256x1
  slices_S256x128_o0_41_S256x1 : S256x128.Slices ![0, 41] S256x1
  slices_S256x128_o0_42_S256x1 : S256x128.Slices ![0, 42] S256x1
  slices_S256x128_o0_43_S256x1 : S256x128.Slices ![0, 43] S256x1
  slices_S256x128_o0_44_S256x1 : S256x128.Slices ![0, 44] S256x1
  slices_S256x128_o0_45_S256x1 : S256x128.Slices ![0, 45] S256x1
  slices_S256x128_o0_46_S256x1 : S256x128.Slices ![0, 46] S256x1
  slices_S256x128_o0_47_S256x1 : S256x128.Slices ![0, 47] S256x1
  slices_S256x128_o0_48_S256x1 : S256x128.Slices ![0, 48] S256x1
  slices_S256x128_o0_49_S256x1 : S256x128.Slices ![0, 49] S256x1
  slices_S256x128_o0_50_S256x1 : S256x128.Slices ![0, 50] S256x1
  slices_S256x128_o0_51_S256x1 : S256x128.Slices ![0, 51] S256x1
  slices_S256x128_o0_52_S256x1 : S256x128.Slices ![0, 52] S256x1
  slices_S256x128_o0_53_S256x1 : S256x128.Slices ![0, 53] S256x1
  slices_S256x128_o0_54_S256x1 : S256x128.Slices ![0, 54] S256x1
  slices_S256x128_o0_55_S256x1 : S256x128.Slices ![0, 55] S256x1
  slices_S256x128_o0_56_S256x1 : S256x128.Slices ![0, 56] S256x1
  slices_S256x128_o0_57_S256x1 : S256x128.Slices ![0, 57] S256x1
  slices_S256x128_o0_58_S256x1 : S256x128.Slices ![0, 58] S256x1
  slices_S256x128_o0_59_S256x1 : S256x128.Slices ![0, 59] S256x1
  slices_S256x128_o0_60_S256x1 : S256x128.Slices ![0, 60] S256x1
  slices_S256x128_o0_61_S256x1 : S256x128.Slices ![0, 61] S256x1
  slices_S256x128_o0_62_S256x1 : S256x128.Slices ![0, 62] S256x1
  slices_S256x128_o0_63_S256x1 : S256x128.Slices ![0, 63] S256x1
  slices_S256x128_o0_64_S256x1 : S256x128.Slices ![0, 64] S256x1
  slices_S256x128_o0_65_S256x1 : S256x128.Slices ![0, 65] S256x1
  slices_S256x128_o0_66_S256x1 : S256x128.Slices ![0, 66] S256x1
  slices_S256x128_o0_67_S256x1 : S256x128.Slices ![0, 67] S256x1
  slices_S256x128_o0_68_S256x1 : S256x128.Slices ![0, 68] S256x1
  slices_S256x128_o0_69_S256x1 : S256x128.Slices ![0, 69] S256x1
  slices_S256x128_o0_70_S256x1 : S256x128.Slices ![0, 70] S256x1
  slices_S256x128_o0_71_S256x1 : S256x128.Slices ![0, 71] S256x1
  slices_S256x128_o0_72_S256x1 : S256x128.Slices ![0, 72] S256x1
  slices_S256x128_o0_73_S256x1 : S256x128.Slices ![0, 73] S256x1
  slices_S256x128_o0_74_S256x1 : S256x128.Slices ![0, 74] S256x1
  slices_S256x128_o0_75_S256x1 : S256x128.Slices ![0, 75] S256x1
  slices_S256x128_o0_76_S256x1 : S256x128.Slices ![0, 76] S256x1
  slices_S256x128_o0_77_S256x1 : S256x128.Slices ![0, 77] S256x1
  slices_S256x128_o0_78_S256x1 : S256x128.Slices ![0, 78] S256x1
  slices_S256x128_o0_79_S256x1 : S256x128.Slices ![0, 79] S256x1
  slices_S256x128_o0_80_S256x1 : S256x128.Slices ![0, 80] S256x1
  slices_S256x128_o0_81_S256x1 : S256x128.Slices ![0, 81] S256x1
  slices_S256x128_o0_82_S256x1 : S256x128.Slices ![0, 82] S256x1
  slices_S256x128_o0_83_S256x1 : S256x128.Slices ![0, 83] S256x1
  slices_S256x128_o0_84_S256x1 : S256x128.Slices ![0, 84] S256x1
  slices_S256x128_o0_85_S256x1 : S256x128.Slices ![0, 85] S256x1
  slices_S256x128_o0_86_S256x1 : S256x128.Slices ![0, 86] S256x1
  slices_S256x128_o0_87_S256x1 : S256x128.Slices ![0, 87] S256x1
  slices_S256x128_o0_88_S256x1 : S256x128.Slices ![0, 88] S256x1
  slices_S256x128_o0_89_S256x1 : S256x128.Slices ![0, 89] S256x1
  slices_S256x128_o0_90_S256x1 : S256x128.Slices ![0, 90] S256x1
  slices_S256x128_o0_91_S256x1 : S256x128.Slices ![0, 91] S256x1
  slices_S256x128_o0_92_S256x1 : S256x128.Slices ![0, 92] S256x1
  slices_S256x128_o0_93_S256x1 : S256x128.Slices ![0, 93] S256x1
  slices_S256x128_o0_94_S256x1 : S256x128.Slices ![0, 94] S256x1
  slices_S256x128_o0_95_S256x1 : S256x128.Slices ![0, 95] S256x1
  slices_S256x128_o0_96_S256x1 : S256x128.Slices ![0, 96] S256x1
  slices_S256x128_o0_97_S256x1 : S256x128.Slices ![0, 97] S256x1
  slices_S256x128_o0_98_S256x1 : S256x128.Slices ![0, 98] S256x1
  slices_S256x128_o0_99_S256x1 : S256x128.Slices ![0, 99] S256x1
  slices_S256x128_o0_100_S256x1 : S256x128.Slices ![0, 100] S256x1
  slices_S256x128_o0_101_S256x1 : S256x128.Slices ![0, 101] S256x1
  slices_S256x128_o0_102_S256x1 : S256x128.Slices ![0, 102] S256x1
  slices_S256x128_o0_103_S256x1 : S256x128.Slices ![0, 103] S256x1
  slices_S256x128_o0_104_S256x1 : S256x128.Slices ![0, 104] S256x1
  slices_S256x128_o0_105_S256x1 : S256x128.Slices ![0, 105] S256x1
  slices_S256x128_o0_106_S256x1 : S256x128.Slices ![0, 106] S256x1
  slices_S256x128_o0_107_S256x1 : S256x128.Slices ![0, 107] S256x1
  slices_S256x128_o0_108_S256x1 : S256x128.Slices ![0, 108] S256x1
  slices_S256x128_o0_109_S256x1 : S256x128.Slices ![0, 109] S256x1
  slices_S256x128_o0_110_S256x1 : S256x128.Slices ![0, 110] S256x1
  slices_S256x128_o0_111_S256x1 : S256x128.Slices ![0, 111] S256x1
  slices_S256x128_o0_112_S256x1 : S256x128.Slices ![0, 112] S256x1
  slices_S256x128_o0_113_S256x1 : S256x128.Slices ![0, 113] S256x1
  slices_S256x128_o0_114_S256x1 : S256x128.Slices ![0, 114] S256x1
  slices_S256x128_o0_115_S256x1 : S256x128.Slices ![0, 115] S256x1
  slices_S256x128_o0_116_S256x1 : S256x128.Slices ![0, 116] S256x1
  slices_S256x128_o0_117_S256x1 : S256x128.Slices ![0, 117] S256x1
  slices_S256x128_o0_118_S256x1 : S256x128.Slices ![0, 118] S256x1
  slices_S256x128_o0_119_S256x1 : S256x128.Slices ![0, 119] S256x1
  slices_S256x128_o0_120_S256x1 : S256x128.Slices ![0, 120] S256x1
  slices_S256x128_o0_121_S256x1 : S256x128.Slices ![0, 121] S256x1
  slices_S256x128_o0_122_S256x1 : S256x128.Slices ![0, 122] S256x1
  slices_S256x128_o0_123_S256x1 : S256x128.Slices ![0, 123] S256x1
  slices_S256x128_o0_124_S256x1 : S256x128.Slices ![0, 124] S256x1
  slices_S256x128_o0_125_S256x1 : S256x128.Slices ![0, 125] S256x1
  slices_S256x128_o0_126_S256x1 : S256x128.Slices ![0, 126] S256x1
  slices_S256x128_o0_127_S256x1 : S256x128.Slices ![0, 127] S256x1
  concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x128_d1 : Shape.Concatenates (S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: S256x1 :: []) S256x128 1
  dot_S256x1024_S1024x1880_S256x1880_1_0_0_1_n_n_wf : DotDims.WF S256x1024 S1024x1880 S256x1880 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1880x1024.size a ≤ S1880x1024.size a
  hwx0_1 : ∀ i : grid0.Coords, EltTy.bits .f32 = 32 ∨ (Rect.block (s := S1880x1024) S1880x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1880.size a ≤ S1880.size a
  hwx0_2 : ∀ i : grid0.Coords, EltTy.bits .f32 = 32 ∨ (Rect.block (s := S1880) S1880.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S16384x128.size a
  hwx0_3 : ∀ i : grid0.Coords, EltTy.bits .i32 = 32 ∨ (Rect.block (s := S16384x128) S256x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S16384x128.size a
  hwx0_4 : ∀ i : grid0.Coords, EltTy.bits .f32 = 32 ∨ (Rect.block (s := S16384x128) S256x128.size (cc0_transform_4 i) (hinb0_4 i)).WholeWords (EltTy.packing .f32)

variable [Facts₀]

def dot_S256x1024_S1024x1880_S256x1880_1_0_0_1_n_n : DotDims S256x1024 S1024x1880 S256x1880 where
  lhsContracting := [1]
  rhsContracting := [0]
  lhsNonContracting := [0]
  rhsNonContracting := [1]
  lhsBatch := []
  rhsBatch := []
  wf := dot_S256x1024_S1024x1880_S256x1880_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1880x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1880.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1880x1024 : Shape := ⟨2, ![1880, 1024]⟩
abbrev S1880 : Shape := ⟨1, ![1880]⟩
abbrev S16384x128 : Shape := ⟨2, ![16384, 128]⟩
abbrev S1024x1880 : Shape := ⟨2, ![1024, 1880]⟩
abbrev S16384x1880 : Shape := ⟨2, ![16384, 1880]⟩
abbrev S1x1880 : Shape := ⟨2, ![1, 1880]⟩
abbrev S_ : Shape := ⟨0, ![]⟩
abbrev S16384x128x1 : Shape := ⟨3, ![16384, 128, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1880x1024, .f32⟩
  | .hbm, ⟨2, _⟩ => ⟨S1880, .f32⟩
  | .hbm, ⟨3, _⟩ => ⟨S16384x128, .i32⟩
  | .hbm, ⟨4, _⟩ => ⟨S1024x1880, .f32⟩
  | .hbm, ⟨5, _⟩ => ⟨S16384x1880, .f32⟩
  | .hbm, ⟨6, _⟩ => ⟨S1x1880, .f32⟩
  | .hbm, ⟨7, _⟩ => ⟨S16384x1880, .f32⟩
  | .hbm, ⟨8, _⟩ => ⟨S16384x1880, .f32⟩
  | .hbm, ⟨9, _⟩ => ⟨S_, .i32⟩
  | .hbm, ⟨10, _⟩ => ⟨S16384x128, .i32⟩
  | .hbm, ⟨11, _⟩ => ⟨S16384x128, .i1⟩
  | .hbm, ⟨12, _⟩ => ⟨S_, .i32⟩
  | .hbm, ⟨13, _⟩ => ⟨S16384x128, .i32⟩
  | .hbm, ⟨14, _⟩ => ⟨S16384x128, .i32⟩
  | .hbm, ⟨15, _⟩ => ⟨S16384x128, .i32⟩
  | .hbm, ⟨16, _⟩ => ⟨S16384x128x1, .i32⟩
  | .hbm, ⟨17, _⟩ => ⟨S1, .i32⟩
  | .hbm, ⟨18, _⟩ => ⟨S_, .i32⟩
  | .hbm, ⟨19, _⟩ => ⟨S16384x128x1, .i32⟩
  | .hbm, ⟨20, _⟩ => ⟨S16384x128x1, .i1⟩
  | .hbm, ⟨21, _⟩ => ⟨S1x1x1, .i32⟩
  | .hbm, ⟨22, _⟩ => ⟨S16384x128x1, .i32⟩
  | .hbm, ⟨23, _⟩ => ⟨S16384x128x1, .i1⟩
  | .hbm, ⟨24, _⟩ => ⟨S16384x128x1, .i1⟩
  | .hbm, ⟨25, _⟩ => ⟨S_, .i1⟩
  | .hbm, ⟨26, _⟩ => ⟨S16384x128, .i1⟩
  | .hbm, ⟨27, _⟩ => ⟨S16384x128, .f32⟩
  | .hbm, ⟨28, _⟩ => ⟨S_, .f32⟩
  | .hbm, ⟨29, _⟩ => ⟨S16384x128, .f32⟩
  | .hbm, ⟨30, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩

abbrev nD : Nat := 1
abbrev τ : Topo := Topo.v7x

variable {F : FTy → Type} [FloatOps F]

class Facts₀ : Prop where
  transposes_S1880x1024_S1024x1880_1_0 : S1880x1024.Transposes [1, 0] S1024x1880
  bcast_S1880_S1x1880_1 : S1880.BroadcastsInDim S1x1880 (![1] : Fin 1 → Fin S1x1880.rank)
  bcast_S1x1880_S16384x1880_0_1 : S1x1880.BroadcastsInDim S16384x1880 (![0, 1] : Fin 2 → Fin S16384x1880.rank)
  bcast_S_S16384x128 : S_.BroadcastsInDim S16384x128 (![] : Fin 0 → Fin S16384x128.rank)
  shapeCasts_S16384x128_S16384x128x1 : S16384x128.ShapeCasts S16384x128x1
  bcast_S_S16384x128x1 : S_.BroadcastsInDim S16384x128x1 (![] : Fin 0 → Fin S16384x128x1.rank)
  bcast_S1_S1x1x1_2 : S1.BroadcastsInDim S1x1x1 (![2] : Fin 1 → Fin S1x1x1.rank)
  bcast_S1x1x1_S16384x128x1_0_1_2 : S1x1x1.BroadcastsInDim S16384x128x1 (![0, 1, 2] : Fin 3 → Fin S16384x128x1.rank)
  reducesTo_S16384x128x1_S16384x128_d2 : S16384x128x1.ReducesTo [2] S16384x128
  h_S_ : 0 < S_.numel
  dot_S16384x1024_S1024x1880_S16384x1880_1_0_0_1_n_n_wf : DotDims.WF S16384x1024 S1024x1880 S16384x1880 [1] [0] [0] [1] [] []
  gather_S16384x1880_S16384x128x1_S16384x128_n_1_0_0_1_2_11_wf : GatherDims.WF S16384x1880 S16384x128x1 S16384x128 [] [1] [0] [1] [0] 2 ![1, 1]

variable [Facts₀]

def dot_S16384x1024_S1024x1880_S16384x1880_1_0_0_1_n_n : DotDims S16384x1024 S1024x1880 S16384x1880 where
  lhsContracting := [1]
  rhsContracting := [0]
  lhsNonContracting := [0]
  rhsNonContracting := [1]
  lhsBatch := []
  rhsBatch := []
  wf := dot_S16384x1024_S1024x1880_S16384x1880_1_0_0_1_n_n_wf
def gather_S16384x1880_S16384x128x1_S16384x128_n_1_0_0_1_2_11 : GatherDims S16384x1880 S16384x128x1 S16384x128 where
  offsetDims := []
  collapsedSliceDims := [1]
  operandBatchingDims := [0]
  startIndicesBatchingDims := [0]
  startIndexMap := [1]
  indexVectorDim := 2
  sliceSizes := ![1, 1]
  wf := gather_S16384x1880_S16384x128x1_S16384x128_n_1_0_0_1_2_11_wf

class Facts : Prop extends Facts₀ where

variable [Facts]
-- ==== Proof.Spec.lean ====
/-
  What both programs compute. For a batch row `r` and an output `n` the logit is the inner product of row `r` of the
  hidden states with row `n` of the weights, plus the bias of `n`. The result at `(r, q)` is the logit of row `r` at the
  output that the index word `idx[r, q]` names. It is written here as the sum, over all 1880 outputs, of the logits
  whose position equals the word (the other terms are zero): this is the form the masked row sums have, and for a word
  below 1880 the sum has exactly one non-zero term, the logit at that position (`pick_of_lt`), which is the form a
  gather has. No finiteness is needed: adding zeros changes nothing on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The logit of batch row `r` at output `n`: `∑ₖ h[r, k] · w[n, k] + b[n]`. -/
def logit {R : Nat} (h : (⟨2, ![R, 1024]⟩ : Shape).Idx → EReal) (w : (⟨2, ![1880, 1024]⟩ : Shape).Idx → EReal)
    (b : (⟨1, ![1880]⟩ : Shape).Idx → EReal) (r : Fin R) (n : Fin 1880) : EReal :=
  (∑ k : Fin 1024, h (ix2 r k) * w (ix2 n k)) + b (ix1 n)

/-- Selection by an index word: the sum over the 1880 positions of the entries whose position, as a 32-bit word, is `w`. -/
def pick (f : Fin 1880 → EReal) (w : BitVec 32) : EReal :=
  ∑ n : Fin 1880, if BitVec.ofNat 32 n.val = w then f n else 0

/-- A word below 1880 selects exactly the entry at its position. -/
theorem pick_of_lt (f : Fin 1880 → EReal) (w : BitVec 32) (hw : w.toNat < 1880) : pick f w = f ⟨w.toNat, hw⟩ := by
  unfold pick
  rw [Finset.sum_eq_single (⟨w.toNat, hw⟩ : Fin 1880)]
  · rw [if_pos]
    apply BitVec.eq_of_toNat_eq
    rw [BitVec.toNat_ofNat]
    exact Nat.mod_eq_of_lt w.isLt
  · intro n _ hn
    rw [if_neg]
    intro h
    apply hn
    apply Fin.ext
    show n.val = w.toNat
    rw [← h, BitVec.toNat_ofNat]
    have := n.isLt
    exact (Nat.mod_eq_of_lt (by omega)).symm
  · intro h
    exact absurd (Finset.mem_univ _) h

/-- The result array: at `(r, q)` the logit of row `r` selected by the word `idx[r, q]`. -/
def G {R M : Nat} (h : (⟨2, ![R, 1024]⟩ : Shape).Idx → EReal) (w : (⟨2, ![1880, 1024]⟩ : Shape).Idx → EReal)
    (b : (⟨1, ![1880]⟩ : Shape).Idx → EReal) (idx : (⟨2, ![R, M]⟩ : Shape).Idx → BitVec 32) :
    (⟨2, ![R, M]⟩ : Shape).Idx → EReal :=
  fun i => pick (logit h w b (i 0)) (idx i)

theorem G_apply {R M : Nat} (h : (⟨2, ![R, 1024]⟩ : Shape).Idx → EReal) (w : (⟨2, ![1880, 1024]⟩ : Shape).Idx → EReal)
    (b : (⟨1, ![1880]⟩ : Shape).Idx → EReal) (idx : (⟨2, ![R, M]⟩ : Shape).Idx → BitVec 32) (r : Fin R) (q : Fin M) :
    G h w b idx (ix2 r q) = pick (logit h w b r) (idx (ix2 r q)) := rfl

end Cert.Spec

end
-- ==== Proof.KernelCol.lean ====
/-
  The two pieces of the kernel body's arithmetic, read at an index on the extended reals.

  The logits block: rounding to bf16 changes nothing there, the transposed weights at `(k, n)` are the weights at
  `(n, k)`, the matrix product into a zero accumulator is the sum over the contraction index, and the bias is added along
  the rows, so entry `(p, n)` is `∑ₖ h[p, k] · w[n, k] + b[n]`.

  One output column: column `m` of the index block is broadcast along the 1880 outputs and compared with the position
  counter, the logits are kept where they agree and replaced by zero elsewhere, and the row is summed. Entry `p` of the
  column is therefore the sum over the positions `n` of "logit `(p, n)` if the word `n` is the index word `(p, m)`, else
  zero".
-/
import proofs.«406982_j87101936763294_1_alg».proof.Proof.Gen.KernelIdeal.Skeleton
import proofs.«406982_j87101936763294_1_alg».proof.Proof.Spec
import Idealize.ShloMosaic.Lib.Pipeline.Value
import Idealize.ShloMosaic.Lib.ValueIdx
import Idealize.ShloMosaic.PureOps.Ideal.Laws
import Idealize.ShloMosaic.Lib.StableHlo.Predicate

noncomputable section

open scoped BigOperators

namespace Cert.KernelIdeal.Hand

open Cert.KernelIdeal Cert.KernelIdeal.Gen Idealize.ShloMosaic Idealize.ShloMosaic.ValueIdx

/-! ## The matrix product's operand indices -/

theorem lhs_mm_0 (i : S256x1880.Idx) (q : dot_S256x1024_S1024x1880_S256x1880_1_0_0_1_n_n.contr.Idx) :
    (dot_S256x1024_S1024x1880_S256x1880_1_0_0_1_n_n.lhsIdx i q 0).val = (i 0).val := by
  unfold DotDims.lhsIdx
  rw [dif_neg (show ¬(0 : Fin S256x1024.rank) ∈ dot_S256x1024_S1024x1880_S256x1880_1_0_0_1_n_n.lhsBatch by decide), dif_pos (show (0 : Fin S256x1024.rank) ∈ dot_S256x1024_S1024x1880_S256x1880_1_0_0_1_n_n.lhsNonContracting by decide)]
  rfl
theorem lhs_mm_1 (i : S256x1880.Idx) (q : dot_S256x1024_S1024x1880_S256x1880_1_0_0_1_n_n.contr.Idx) :
    (dot_S256x1024_S1024x1880_S256x1880_1_0_0_1_n_n.lhsIdx i q 1).val = (q ⟨0, by decide⟩).val :=
  dot_S256x1024_S1024x1880_S256x1880_1_0_0_1_n_n.lhsIdx_val_of_single rfl i q
theorem rhs_mm_0 (i : S256x1880.Idx) (q : dot_S256x1024_S1024x1880_S256x1880_1_0_0_1_n_n.contr.Idx) :
    (dot_S256x1024_S1024x1880_S256x1880_1_0_0_1_n_n.rhsIdx i q 0).val = (q ⟨0, by decide⟩).val :=
  dot_S256x1024_S1024x1880_S256x1880_1_0_0_1_n_n.rhsIdx_val_of_single rfl i q
theorem rhs_mm_1 (i : S256x1880.Idx) (q : dot_S256x1024_S1024x1880_S256x1880_1_0_0_1_n_n.contr.Idx) :
    (dot_S256x1024_S1024x1880_S256x1880_1_0_0_1_n_n.rhsIdx i q 1).val = (i 1).val := by
  unfold DotDims.rhsIdx
  rw [dif_neg (show ¬(1 : Fin S1024x1880.rank) ∈ dot_S256x1024_S1024x1880_S256x1880_1_0_0_1_n_n.rhsBatch by decide), dif_pos (show (1 : Fin S1024x1880.rank) ∈ dot_S256x1024_S1024x1880_S256x1880_1_0_0_1_n_n.rhsNonContracting by decide)]
  rfl

/-- The matrix product into a zero accumulator at `(p, n)`: row `p` of the left operand against column `n` of the right. -/
theorem mm_apply (a : FVec Ideal S256x1024 .bf16) (b : FVec Ideal S1024x1880 .bf16) (p : Fin 256) (n : Fin 1880) :
    FloatOps.matmul dot_S256x1024_S1024x1880_S256x1880_1_0_0_1_n_n none a b (constant (F := Ideal) S256x1880 .f32 0x00000000#32) (ix2 p n)
      = ∑ k : Fin 1024, a (ix2 p k) * b (ix2 k n) := by
  rw [Ideal.matmul_constant_zero_apply, ← Equiv.sum_comp (ValueIdx.contrEquiv1 dot_S256x1024_S1024x1880_S256x1880_1_0_0_1_n_n 1024 rfl rfl).symm]
  refine Finset.sum_congr rfl fun k _ => ?_
  have hk := ValueIdx.contrEquiv1_symm_val dot_S256x1024_S1024x1880_S256x1880_1_0_0_1_n_n 1024 rfl rfl k
  have el : dot_S256x1024_S1024x1880_S256x1880_1_0_0_1_n_n.lhsIdx (ix2 p n) ((ValueIdx.contrEquiv1 dot_S256x1024_S1024x1880_S256x1880_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S256x1024_S1024x1880_S256x1880_1_0_0_1_n_n.rhsIdx (ix2 p n) ((ValueIdx.contrEquiv1 dot_S256x1024_S1024x1880_S256x1880_1_0_0_1_n_n 1024 rfl rfl).symm k) = ix2 k n := funext fun a => Fin.ext (by
    match a with
    | ⟨0, _⟩ => exact (rhs_mm_0 _ _).trans hk
    | ⟨1, _⟩ => exact rhs_mm_1 _ _)
  rw [el, er]

/-! ## The logits block -/

/-- Entry `(p, n)` of the logits block is the logit of block row `p` at output `n`. -/
theorem logits_apply (x0 : Vec Ideal S256x1024 .f32) (x1 : Vec Ideal S1880x1024 .f32) (x2 : Vec Ideal S1880 .f32) (p : Fin 256) (n : Fin 1880) :
    k0_pay6 (F := Ideal) x0 x1 x2 (ix2 p n) = Cert.Spec.logit x0 x1 x2 p n := by
  unfold k0_pay6 Cert.Spec.logit
  dsimp only
  rw [addf_apply]
  congr 1
  · refine (mm_apply _ _ p n).trans ?_
    refine Finset.sum_congr rfl fun k _ => ?_
    congr 1
    exact transpose_apply [1, 0] _ transposes_S1880x1024_p1_0_S1024x1880 (ix2 k n) (ix2 n k) (fun b => match b with
      | ⟨0, _⟩ => rfl
      | ⟨1, _⟩ => rfl)
  · refine (broadcastTo_apply _ broadcasts_S1x1880_S256x1880 (ix2 p n) (ix2 (0 : Fin 1) n) (fun a => match a with
      | ⟨0, _⟩ => by show 0 = if (1 : Nat) = 1 then 0 else p.val; rw [if_pos rfl]
      | ⟨1, _⟩ => by show n.val = if (1880 : Nat) = 1 then 0 else n.val; rw [if_neg (by decide)])).trans ?_
    refine shapeCast_apply x2 shapeCasts_S1880_S1x1880 (ix2 (0 : Fin 1) n) (ix1 n) ?_
    rw [Shape.rowMajor_val_one, Shape.rowMajor_val_two]
    show n.val = 0 * 1880 + n.val
    omega

/-! ## One output column -/

/-- The column the body computes from the logits block `L` and the index block `x3` with the slice offsets `off`. -/
def colOf (L : FVec Ideal S256x1880 .f32) (x3 : Vec Ideal S256x128 .i32) (off : Fin 2 → Nat) (hs : S256x128.Slices off S256x1) : FVec Ideal S256x1 .f32 :=
  shapeCast S256x1
    (multiReduction .add [1] S256
      (select (cmpi .eq (iota .tc S256x1880 32 [1] iota_S256x1880_d1_w32)
          (broadcastTo S256x1880 (extractStridedSlice S256x1 off x3 hs) broadcasts_S256x1_S256x1880))
        L (broadcast S256x1880 (Scalar.ofBits (F := Ideal) .f32 0x00000000#32)))
      0x00000000#32 reduces_S256x1880_S256 (.inl rfl) rfl)
    shapeCasts_S256_S256x1

/-- Entry `p` of column `m`: the logits of row `p` selected by the index word at `(p, m)`. -/
theorem colOf_apply (L : FVec Ideal S256x1880 .f32) (x3 : Vec Ideal S256x128 .i32) (off : Fin 2 → Nat) (hs : S256x128.Slices off S256x1)
    (m : Fin 128) (h0 : off 0 = 0) (h1 : off 1 = m.val) (p : Fin 256) :
    colOf L x3 off hs (ix2 p (0 : Fin 1)) = Cert.Spec.pick (fun n => L (ix2 p n)) (x3 (ix2 p m)) := by
  unfold colOf Cert.Spec.pick
  refine (shapeCast_apply _ shapeCasts_S256_S256x1 (ix2 p (0 : Fin 1)) (ix1 p) ?_).trans ?_
  · rw [Shape.rowMajor_val_one, Shape.rowMajor_val_two]
    show p.val = p.val * 1 + 0
    omega
  refine (Ideal.multiReduction_add_single _ _ reduces_S256x1880_S256 _ _ (ix1 p)).trans ?_
  refine Finset.sum_congr rfl fun (n : Fin 1880) _ => ?_
  have hl : reduces_S256x1880_S256.lift (ix1 p) n = ix2 p n := funext fun a => Fin.ext (by
    match a with
    | ⟨0, _⟩ => rfl
    | ⟨1, _⟩ => rfl)
  rw [hl]
  -- the position counter at `(p, n)` is the word `n`; the broadcast column at `(p, n)` is the index word `(p, m)`
  have hi : iota .tc S256x1880 32 [1] iota_S256x1880_d1_w32 (ix2 p n) = BitVec.ofNat 32 n.val :=
    iota_single_apply .tc S256x1880 32 1 iota_S256x1880_d1_w32 (ix2 p n)
  have hb : broadcastTo S256x1880 (extractStridedSlice S256x1 off x3 hs) broadcasts_S256x1_S256x1880 (ix2 p n) = x3 (ix2 p m) := by
    refine (broadcastTo_apply _ broadcasts_S256x1_S256x1880 (ix2 p n) (ix2 p (0 : Fin 1)) (fun a => match a with
      | ⟨0, _⟩ => by show p.val = if (256 : Nat) = 1 then 0 else p.val; rw [if_neg (by decide)]
      | ⟨1, _⟩ => by show 0 = if (1 : Nat) = 1 then 0 else n.val; rw [if_pos rfl])).trans ?_
    exact extractStridedSlice_apply off x3 hs (ix2 p (0 : Fin 1)) (ix2 p m) (fun a => match a with
      | ⟨0, _⟩ => by show p.val = off 0 + p.val; rw [h0]; omega
      | ⟨1, _⟩ => by show m.val = off 1 + 0; rw [h1]; omega)
  show Scalar.select (IntOp.cmpi .eq (iota .tc S256x1880 32 [1] iota_S256x1880_d1_w32 (ix2 p n))
      (broadcastTo S256x1880 (extractStridedSlice S256x1 off x3 hs) broadcasts_S256x1_S256x1880 (ix2 p n)))
    (L (ix2 p n)) (Ideal.ofBits .f32 0x00000000#32) = _
  rw [hi, hb]
  by_cases hw : BitVec.ofNat 32 n.val = x3 (ix2 p m)
  · rw [if_pos hw, StableHlo.Predicate.cmpi_eq_iff.2 hw, select_one]
  · rw [if_neg hw, eq_zero_of_ne_one (fun h => hw (StableHlo.Predicate.cmpi_eq_iff.1 h)), select_zero]
    exact Ideal.ofBits_zero_f32

end Cert.KernelIdeal.Hand

end
-- ==== Proof.KernelStore.lean ====
/-
  The block the kernel body stores, as a function of the four input blocks: entry `(p, q)` is the logit of block row `p`
  selected by the index word at `(p, q)`.

  The body stores ONE value, the concatenation along the second axis of 128 columns of width one; column `m` is the
  masked row sum of the logits block against column `m` of the index block. So entry `(p, q)` of the stored block is
  entry `p` of column `q`, which is the selection sum over the logits of row `p` by the index word `(p, q)`.
-/
import proofs.«406982_j87101936763294_1_alg».proof.Proof.Gen.KernelIdeal.Frame
import proofs.«406982_j87101936763294_1_alg».proof.Proof.Spec
import proofs.«406982_j87101936763294_1_alg».proof.Proof.KernelCol

noncomputable section

namespace Cert.KernelIdeal.Hand

open Cert.KernelIdeal Cert.KernelIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl
theorem hz1 : (![0] : Fin 1 → Nat) = fun _ => 0 := funext fun a => by fin_cases a <;> rfl

/-- Column `m` of a [256,128] block is a [256,1] slice of it. -/
theorem slices_col (m : Fin 128) : S256x128.Slices ![0, m.val] S256x1 :=
  ⟨rfl, fun a => match a with
    | ⟨0, _⟩ => by show 0 + 256 ≤ 256; omega
    | ⟨1, _⟩ => by show m.val + 1 ≤ 128; have := m.isLt; omega⟩

/-- The 128 columns, each with its shape. -/
abbrev cols (L : FVec Ideal S256x1880 .f32) (x3 : Vec Ideal S256x128 .i32) : Fin 128 → (s : Shape) × (s.Idx → Ideal .f32) :=
  fun m => ⟨S256x1, colOf L x3 ![0, m.val] (slices_col m)⟩

/-- 128 columns of width one fill the 128 positions of the second axis. -/
theorem cols_concat (L : FVec Ideal S256x1880 .f32) (x3 : Vec Ideal S256x128 .i32) :
    Shape.Concatenates ((List.ofFn (cols L x3)).map (·.1)) S256x128 1 := by
  have e : (List.ofFn (cols L x3)).map (·.1) = List.replicate 128 S256x1 := by
    rw [List.map_ofFn]
    exact List.ofFn_const 128 S256x1
  rw [e]
  decide

/-- The stored block is the selected-logit function of the input blocks. -/
theorem out_eq (x0 : Vec Ideal S256x1024 .f32) (x1 : Vec Ideal S1880x1024 .f32) (x2 : Vec Ideal S1880 .f32) (x3 : Vec Ideal S256x128 .i32) :
    out0_4 (F := Ideal) x0 x1 x2 x3 = Cert.Spec.G x0 x1 x2 x3 := by
  unfold out0_4
  rw [View.canon_unit_zero hz2]
  simp only [View.ld_unit_zero (S := S256x1024) hz2, View.ld_unit_zero (S := S1880x1024) hz2, View.ld_unit_zero (S := S1880) hz1,
    View.ld_unit_zero (S := S256x128) hz2]
  -- the one stored value is the concatenation of the 128 columns
  show concatenate S256x128 1 (List.ofFn (cols (k0_pay6 (F := Ideal) x0 x1 x2) x3)) (cols_concat _ _) = _
  funext j
  obtain ⟨p, q, rfl⟩ : ∃ (p : Fin 256) (q : Fin 128), j = ix2 p q := ⟨j 0, j 1, eq_ix2 j⟩
  rw [Cert.Spec.G_apply]
  refine (concatenate_ofFn_unit_apply (t := S256x128) (s₁ := S256x1) (1 : Fin 2) (fun m => colOf (k0_pay6 (F := Ideal) x0 x1 x2) x3 ![0, m.val] (slices_col m))
    (cols_concat _ _) rfl rfl (ix2 p q) q rfl (ix2 p (0 : Fin 1)) ?_).trans ?_
  · intro b hb
    match b with
    | ⟨0, _⟩ => rfl
    | ⟨1, _⟩ => exact absurd rfl hb
  refine (colOf_apply _ x3 _ _ q rfl rfl p).trans ?_
  congr 1
  funext n
  exact logits_apply x0 x1 x2 p n

end Cert.KernelIdeal.Hand

end
-- ==== Proof.KernelArray.lean ====
/-
  From the blocks to the array. Grid point `t` stages rows `256 t … 256 t + 255` of the hidden states and of the index
  words, the whole weights and the whole bias, and writes rows `256 t … 256 t + 255` of the result. The block it writes
  is the selected-logit function of its input blocks, and that is the same rows of the selected-logit function of the
  whole arrays; the 64 blocks cover the result.
-/
import proofs.«406982_j87101936763294_1_alg».proof.Proof.Gen.KernelIdeal.Value
import proofs.«406982_j87101936763294_1_alg».proof.Proof.KernelStore
import Idealize.ShloMosaic.Lib.Pipeline.Value

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as a function of the argument arrays. -/
abbrev result (c : Dev nD) : S16384x128.Idx → EReal :=
  Cert.Spec.G (m ((c : Thread nD τ).loc main_arg0)) (m ((c : Thread nD τ).loc main_arg1)) (m ((c : Thread nD τ).loc main_arg2))
    (m ((c : Thread nD τ).loc main_arg3))

/-- The block index maps over the 64 grid points: the row-blocked windows sit at block row `t`, the whole-array windows at
    block 0. -/
theorem idx_facts : ∀ t : Fin cfg0.N, t.val < 64
    ∧ win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The selected logit reads the hidden states only through its row and the index words only at its own position:
    a block that agrees with the array on row `r` (as its row `p`) gives the same value. -/
theorem G_rows (h : S16384x1024.Idx → EReal) (w : S1880x1024.Idx → EReal) (b : S1880.Idx → EReal) (idx : S16384x128.Idx → BitVec 32)
    (h' : S256x1024.Idx → EReal) (idx' : S256x128.Idx → BitVec 32) (r : Fin 16384) (p : Fin 256) (q : Fin 128)
    (eh : ∀ k : Fin 1024, h' (ix2 p k) = h (ix2 r k)) (ei : idx' (ix2 p q) = idx (ix2 r q)) :
    Cert.Spec.G h' w b idx' (ix2 p q) = Cert.Spec.G h w b idx (ix2 r q) := by
  rw [Cert.Spec.G_apply, Cert.Spec.G_apply, ei]
  congr 1
  funext n
  unfold Cert.Spec.logit
  congr 1
  exact Finset.sum_congr rfl fun k _ => by rw [eh k]

/-- Row `p` of the hidden-state block at point `t` is row `256 t + p` of the hidden states. -/
theorem iblk0_apply (c : Dev nD) (t : Fin cfg0.N) (p : Fin 256) (k : Fin 1024) (hr : 256 * t.val + p.val < 16384) :
    (iblk m c 0 t : Vec Ideal S256x1024 .f32) (ix2 p k)
      = (m ((c : Thread nD τ).loc main_arg0) : S16384x1024.Idx → EReal) (ix2 ⟨256 * t.val + p.val, hr⟩ k) := by
  obtain ⟨-, e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 256 + 1 * p.val = 256 * t.val + p.val; rw [e0]; omega
  | ⟨1, _⟩ => show win0_0.index t 1 * 1024 + 1 * k.val = k.val; rw [e1]; omega

/-- The weight block at every point is the whole weight array. -/
theorem iblk1_eq (c : Dev nD) (t : Fin cfg0.N) :
    (iblk m c 1 t : Vec Ideal S1880x1024 .f32) = (m ((c : Thread nD τ).loc main_arg1) : S1880x1024.Idx → EReal) := by
  obtain ⟨-, -, -, e0, e1, -⟩ := idx_facts t
  funext j
  obtain ⟨n, k, rfl⟩ : ∃ (n : Fin 1880) (k : Fin 1024), j = ix2 n k := ⟨j 0, j 1, eq_ix2 j⟩
  unfold iblk
  rw [View.read_apply]
  show V m c main_arg1 _ = m (c.tc.loc main_arg1) _
  unfold V
  congr 1
  funext a
  apply Fin.ext
  match a with
  | ⟨0, _⟩ => show win0_1.index t 0 * 1880 + 1 * n.val = n.val; rw [e0]; omega
  | ⟨1, _⟩ => show win0_1.index t 1 * 1024 + 1 * k.val = k.val; rw [e1]; omega

/-- The bias block at every point is the whole bias array. -/
theorem iblk2_eq (c : Dev nD) (t : Fin cfg0.N) :
    (iblk m c 2 t : Vec Ideal S1880 .f32) = (m ((c : Thread nD τ).loc main_arg2) : S1880.Idx → EReal) := by
  obtain ⟨-, -, -, -, -, e0, -⟩ := idx_facts t
  funext j
  obtain ⟨n, rfl⟩ : ∃ (n : Fin 1880), j = ix1 n := ⟨j 0, eq_ix1 j⟩
  unfold iblk
  rw [View.read_apply]
  show V m c main_arg2 _ = m (c.tc.loc main_arg2) _
  unfold V
  congr 1
  funext a
  apply Fin.ext
  match a with
  | ⟨0, _⟩ => show win0_2.index t 0 * 1880 + 1 * n.val = n.val; rw [e0]; omega

/-- Row `p` of the index-word block at point `t` is row `256 t + p` of the index words. -/
theorem iblk3_apply (c : Dev nD) (t : Fin cfg0.N) (p : Fin 256) (q : Fin 128) (hr : 256 * t.val + p.val < 16384) :
    (iblk m c 3 t : Vec Ideal S256x128 .i32) (ix2 p q)
      = (m ((c : Thread nD τ).loc main_arg3) : S16384x128.Idx → BitVec 32) (ix2 ⟨256 * t.val + p.val, hr⟩ q) := by
  obtain ⟨-, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ => show win0_3.index t 0 * 256 + 1 * p.val = 256 * t.val + p.val; rw [e0]; omega
  | ⟨1, _⟩ => show win0_3.index t 1 * 128 + 1 * q.val = q.val; rw [e1]; omega

/-- Position `(p, q)` of the result block at point `t` is position `(256 t + p, q)` of the result array. -/
theorem emb4_apply (t : Fin cfg0.N) (p : Fin 256) (q : Fin 128) (hr : 256 * t.val + p.val < 16384) :
    (((cfg0.win 4).blk t).view.emb (ix2 p q) : S16384x128.Idx) = ix2 ⟨256 * t.val + p.val, hr⟩ q := by
  obtain ⟨-, -, -, -, -, -, -, -, e0, e1⟩ := idx_facts t
  funext a
  apply Fin.ext
  match a with
  | ⟨0, _⟩ => show win0_4.index t 0 * 256 + 1 * p.val = 256 * t.val + p.val; rw [e0]; omega
  | ⟨1, _⟩ => show win0_4.index t 1 * 128 + 1 * q.val = q.val; rw [e1]; omega

/-- What point `t` writes back is block `t` of `result`. -/
theorem flushed_eq (c : Dev nD) (t : Fin cfg0.N) :
    (dats m 0 c).flushed 4 t = ((cfg0.win 4).blk t).view.read (Elt Ideal) (result m c) := by
  refine (flushed4 m c t).trans ?_
  have ht : t.val < 64 := (idx_facts t).1
  funext j
  obtain ⟨p, q, rfl⟩ : ∃ (p : Fin 256) (q : Fin 128), j = ix2 p q := ⟨j 0, j 1, eq_ix2 j⟩
  have hr : 256 * t.val + p.val < 16384 := by have := p.isLt; omega
  show out0_4 (F := Ideal) (iblk m c 0 t) (iblk m c 1 t) (iblk m c 2 t) (iblk m c 3 t) (ix2 p q)
    = result m c (((cfg0.win 4).blk t).view.emb (ix2 p q))
  refine (congrFun (out_eq (iblk m c 0 t) (iblk m c 1 t) (iblk m c 2 t) (iblk m c 3 t)) (ix2 p q)).trans ?_
  refine Eq.trans ?_ (congrArg (result m c) (emb4_apply t p q hr)).symm
  refine (congrArg (fun w => Cert.Spec.G (iblk m c 0 t) w (iblk m c 2 t) (iblk m c 3 t) (ix2 p q)) (iblk1_eq m c t)).trans ?_
  refine (congrArg (fun b => Cert.Spec.G (iblk m c 0 t) (m ((c : Thread nD τ).loc main_arg1)) b (iblk m c 3 t) (ix2 p q)) (iblk2_eq m c t)).trans ?_
  exact G_rows _ _ _ _ _ _ ⟨256 * t.val + p.val, hr⟩ p q (fun k => iblk0_apply m c t p k hr) (iblk3_apply m c t p q hr)

/-- An index of the result array is in point `t`'s block iff each coordinate is in the block's range on its axis. -/
theorem mem_blk (t : Fin cfg0.N) (i : S16384x128.Idx) :
    i ∈ ((cfg0.win 4).blk t).view.set ↔ ∀ a : Fin 2, win0_4.index t a * S256x128.size a ≤ (i a).val
      ∧ (i a).val < win0_4.index t a * S256x128.size a + S256x128.size a := by
  show i ∈ ((View.whole main_v0).slice (win0_4.rect t)).set ↔ _
  rw [View.set_slice_whole, Rect.mem_set_unit]
  exact Iff.rfl

/-- The 64 blocks cover the result array: row `r` lies in the block of point `r / 256`. -/
theorem cover (i : S16384x128.Idx) :
    ∃ t : Fin cfg0.N, (cfg0.win 4).flush t = true ∧ i ∈ ((cfg0.win 4).blk t).view.set := by
  have h0 : (i 0).val < 16384 := (i 0).isLt
  have h1 : (i 1).val < 128 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t 0 * 256 ≤ (i 0).val ∧ (i 0).val < win0_4.index t 0 * 256 + 256
    rw [e0, ht]; omega
  | ⟨1, _⟩ =>
    show win0_4.index t 1 * 128 ≤ (i 1).val ∧ (i 1).val < win0_4.index t 1 * 128 + 128
    rw [e1]; omega

/-- So the result array ends holding `result`. -/
theorem final (c : Dev nD) : (dats m 0 c).arrAt 4 cfg0.N = result m c :=
  (dats m 0 c).arrAt_eq_of_cover 4 (result m c) (fun t _ => flushed_eq m c t) cover

/-- The kernel's run, read: the result array ends at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks (F := Ideal) m ρ)

end Cert.KernelIdeal.Hand

end
-- ==== Proof.LibTRef.lean ====
/-
  A typed reference carries a buffer together with the fact that the buffer's type is the value's. Contents are moved
  to the buffer's own type and back along that fact; moving there and back changes nothing. Stated for any typed
  reference, so that such pairs can be removed from a term by rewriting, without comparing the terms they wrap.
-/
import Idealize.ShloMosaic.Lib.StableHlo

namespace Idealize.ShloMosaic.StableHlo.TRef

open Idealize.ShloMosaic

variable {sig : RefSig} {T : BufTy} {Val : EltTy → Type}

/-- Contents carried to a buffer's own type and back are unchanged. -/
theorem ofBuf_toBuf (x : TRef sig T) (v : T.Contents Val) : x.ofBuf (x.toBuf v) = v := by
  obtain ⟨r, h, h2, h3⟩ := x
  subst h
  rfl

/-- Contents of a buffer carried to the value's type and back are unchanged. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.LibGatherLast.lean ====
/-
  A gather of one element per row along the last axis, read at a result index. Taking `x[b, m, idx[b, m]]` from an
  array `x : [B, M, C]` prints as a gather whose start indices are the `[B, M, 1, 1]` array of positions, the operand's
  last axis collapsed and start-indexed, its two leading axes batching axes paired with the start indices' two leading
  axes, no offset axes, the index vector on axis 3. Result position `(b, m, 0)` is the operand at `(b, m, c)` where `c`
  is `idx[b, m, 0, 0]` read signed and clamped into `[0, C − 1]`: the two batching axes take their coordinate from the
  result's batch coordinates, not from the start index.

  Also: an and-reduction of all ones is one, and a maximum-reduction of real operands over a non-empty fibre is real.
-/
import Idealize.ShloMosaic.PureOps
import Idealize.ShloMosaic.PureOps.Reduce
import Idealize.ShloMosaic.PureOps.Ideal
import Idealize.ShloMosaic.Lib.ValueIdx
import Idealize.ShloMosaic.Lib.Affine
import Mathlib.Data.EReal.Basic
import Mathlib.Order.Lattice

noncomputable section

namespace Idealize.ShloMosaic.LibGatherLast

open Idealize.ShloMosaic Idealize.ShloMosaic.ValueIdx

/-! ## The read of one element per row along the last axis -/

/-- THE READ: position `(b, m, 0)` of the gather is the operand at `(b, m, c)`, `c` the start `idx[b, m, 0, 0]` read
    signed and clamped into `[0, C − 1]`. The two batching axes carry the result's coordinates `b` and `m`. -/
theorem gather_last_apply {α : Type} {B M C w : Nat} (d : GatherDims ⟨3, ![B, M, C]⟩ ⟨4, ![B, M, 1, 1]⟩ ⟨3, ![B, M, 1]⟩)
    (hoff : d.offsetDims = []) (hcoll : d.collapsedSliceDims = [2]) (hob : d.operandBatchingDims = [0, 1])
    (hsb : d.startIndicesBatchingDims = [0, 1]) (hsim : d.startIndexMap = [2]) (hivd : d.indexVectorDim = 3)
    (x : (⟨3, ![B, M, C]⟩ : Shape).Idx → α) (idx : IVec ⟨4, ![B, M, 1, 1]⟩ w) (b : Fin B) (m : Fin M) (hC : 0 < C) :
    Host.gather d x idx (ix3 b m (0 : Fin 1))
      = x (ix3 b m (⟨min (idx (ix4 b m (0 : Fin 1) (0 : Fin 1))).toInt.toNat (C - 1), by omega⟩ : Fin C)) := by
  -- with the six lists known, the dimension numbers are a literal record but for the slice sizes
  obtain ⟨od, cd, ob, sb, sm, iv, ss, wf⟩ := d
  dsimp only at hoff hcoll hob hsb hsim hivd
  subst hoff hcoll hob hsb hsim hivd
  unfold Host.gather
  congr 1
  funext a
  refine Fin.ext ?_
  simp only [GatherDims.operandIdx]
  match a with
  | ⟨0, _⟩ =>
    -- a batching axis: no start, no offset; the coordinate is the result's on the paired batch axis, `b`
    rw [GatherDims.start_batching _ _ _ _ List.mem_cons_self,
      GatherDims.offCoord_eq_zero _ _ _ (fun h => ((GatherDims.mem_sKept _ _).mp h).2 List.mem_cons_self),
      Nat.zero_add, Nat.add_zero]
    rfl
  | ⟨1, _⟩ =>
    -- the second batching axis: the coordinate is `m`
    rw [GatherDims.start_batching _ _ _ _ (List.mem_cons_of_mem _ List.mem_cons_self),
      GatherDims.offCoord_eq_zero _ _ _
        (fun h => ((GatherDims.mem_sKept _ _).mp h).2 (List.mem_cons_of_mem _ List.mem_cons_self)),
      Nat.zero_add, Nat.add_zero]
    rfl
  | ⟨2, _⟩ =>
    -- the collapsed axis: the start is the entry `(b, m, 0, 0)`, read signed, clamped to `C − 1` (the slice is one wide)
    have hsl : ss 2 = 1 :=
      GatherDims.slice_collapsed ⟨[], [2], [0, 1], [0, 1], [2], 3, ss, wf⟩ 2 List.mem_cons_self
    have hnb : (2 : Fin 3) ∉ ([0, 1] : List (Fin 3)) := by decide
    rw [GatherDims.batchCoord_eq_zero _ _ _ hnb,
      GatherDims.offCoord_eq_zero _ _ _ (fun h => ((GatherDims.mem_sKept _ _).mp h).1 List.mem_cons_self)]
    simp only [Nat.add_zero]
    unfold GatherDims.start
    rw [dif_pos (by exact List.mem_cons_self)]
    show min (idx _).toInt.toNat (C - ss 2) = min (idx (ix4 b m (0 : Fin 1) (0 : Fin 1))).toInt.toNat (C - 1)
    rw [hsl]
    congr 3
    congr 1
    funext c
    refine Fin.ext ?_
    match c with
    | ⟨0, _⟩ => rfl
    | ⟨1, _⟩ => rfl
    | ⟨2, _⟩ => rfl
    | ⟨3, _⟩ => rfl

/-- THE READ IN RANGE: when the start `idx[b, m, 0, 0]`, read signed, is a column `k` of the operand, the clamp is the
    identity and position `(b, m, 0)` of the gather is the operand at `(b, m, k)`. -/
theorem gather_last_apply_of_lt {α : Type} {B M C w : Nat}
    (d : GatherDims ⟨3, ![B, M, C]⟩ ⟨4, ![B, M, 1, 1]⟩ ⟨3, ![B, M, 1]⟩)
    (hoff : d.offsetDims = []) (hcoll : d.collapsedSliceDims = [2]) (hob : d.operandBatchingDims = [0, 1])
    (hsb : d.startIndicesBatchingDims = [0, 1]) (hsim : d.startIndexMap = [2]) (hivd : d.indexVectorDim = 3)
    (x : (⟨3, ![B, M, C]⟩ : Shape).Idx → α) (idx : IVec ⟨4, ![B, M, 1, 1]⟩ w) (b : Fin B) (m : Fin M) (k : Fin C)
    (hk : (idx (ix4 b m (0 : Fin 1) (0 : Fin 1))).toInt = (k.val : ℤ)) :
    Host.gather d x idx (ix3 b m (0 : Fin 1)) = x (ix3 b m k) := by
  have hC : 0 < C := Nat.lt_of_le_of_lt (Nat.zero_le _) k.isLt
  rw [gather_last_apply d hoff hcoll hob hsb hsim hivd x idx b m hC]
  have e : (⟨min (idx (ix4 b m (0 : Fin 1) (0 : Fin 1))).toInt.toNat (C - 1), by omega⟩ : Fin C) = k := by
    apply Fin.ext
    show min (idx (ix4 b m (0 : Fin 1) (0 : Fin 1))).toInt.toNat (C - 1) = k.val
    rw [hk, Int.toNat_natCast]
    have := k.isLt
    omega
  rw [e]

/-! ## An and-reduction of all ones is one -/

/-- A left fold by `and` over `i1` words that starts at 1 and meets only 1s comes out 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, IntOp.andi_eq_one.2 ⟨rfl, hf a⟩]
    exact foldl_andi_one f hf l

/-- A reduction by `and` of an `i1` array whose every element is 1, from an initial value 1, is 1 at every result
    index (the converse of: a reduction by `and` that is 1 met only 1s). -/
theorem reduce_andi_one_of_forall {s t u : Shape} {axes : List (Fin s.rank)} (x : s.Idx → BitVec 1)
    (init : u.Idx → BitVec 1) (h : s.ReducesTo axes t) (hu : 0 < u.numel) (hx : ∀ i, x i = 1#1)
    (hinit : ∀ k, init k = 1#1) (j : t.Idx) :
    Host.reduce IntOp.andi x init h hu j = 1#1 := by
  rw [Host.reduce_eq_foldl, hinit]
  exact foldl_andi_one x hx _

/-! ## A maximum-reduction of reals is a real -/

/-- A left fold by `max` over extended reals that starts at a real and meets only reals comes out a real. -/
theorem foldl_max_real {ι : Type} (f : ι → EReal) (hf : ∀ n, ∃ r : ℝ, f n = (r : EReal)) :
    ∀ (l : List ι) (r : ℝ), ∃ M : ℝ, l.foldl (fun a n => max a (f n)) (r : EReal) = (M : EReal)
  | [], r => ⟨r, rfl⟩
  | a :: l, r => by
    obtain ⟨ra, hra⟩ := hf a
    rw [List.foldl_cons, hra, ← EReal.coe_strictMono.monotone.map_max]
    exact foldl_max_real f hf l _

/-- A left fold by `max` from `−∞` over a non-empty list of reals comes out a real: the first step leaves the first
    element. -/
theorem foldl_max_bot_real {ι : Type} (f : ι → EReal) (hf : ∀ n, ∃ r : ℝ, f n = (r : EReal)) (l : List ι)
    (hl : l ≠ []) : ∃ M : ℝ, l.foldl (fun a n => max a (f n)) (⊥ : EReal) = (M : EReal) := by
  match l, hl with
  | a :: l, _ =>
    obtain ⟨ra, hra⟩ := hf a
    rw [List.foldl_cons, hra, max_eq_right bot_le]
    exact foldl_max_real f hf l ra

/-- At the ideal values, a reduction by maximum from `−∞` of an array of reals is a real at every result index that some
    operand index reduces into (over an empty fibre it stays `−∞`). -/
theorem reduce_max_real {s t u : Shape} {axes : List (Fin s.rank)} {φ : FTy} (x : FVec Ideal s φ)
    (init : u.Idx → Ideal φ) (h : s.ReducesTo axes t) (hu : 0 < u.numel) (hinit : ∀ k, init k = (⊥ : EReal))
    (hx : ∀ i, ∃ r : ℝ, x i = (r : EReal)) (j : t.Idx) (hne : ∃ i, h.drop i = j) :
    ∃ M : ℝ, Host.reduce (FloatOps.maximumf (F := Ideal)) x init h hu j = (M : EReal) := by
  rw [Host.reduce_eq_foldl, hinit]
  obtain ⟨i, hi⟩ := hne
  refine foldl_max_bot_real x hx _ (List.ne_nil_of_mem (a := i) ?_)
  rw [List.mem_filter]
  exact ⟨List.mem_map.2 ⟨s.rowMajor i, List.mem_finRange _, Equiv.symm_apply_apply _ _⟩, by simp [hi]⟩

end Idealize.ShloMosaic.LibGatherLast

end
-- ==== Proof.LibGatherRow.lean ====
/-
  A gather of one element per (row, position) along the second axis of a matrix, read at a result index. Taking
  `x[b, idx[b, m]]` from a matrix `x : [B, C]` (what `take_along_axis` on axis 1 lowers to) prints as a gather whose
  start indices are the `[B, M, 1]` array of positions: the operand's column axis collapsed and start-indexed, its row
  axis a batching axis paired with the start indices' leading axis, no offset axes, the index vector on axis 2. Result
  position `(b, m)` is the operand at `(b, c)` where `c` is `idx[b, m, 0]` read signed and clamped into `[0, C − 1]`:
  the row comes from the result's own first coordinate, not from the start index.
-/
import Idealize.ShloMosaic.PureOps
import Idealize.ShloMosaic.Lib.ValueIdx

noncomputable section

namespace Idealize.ShloMosaic.LibGatherRow

open Idealize.ShloMosaic Idealize.ShloMosaic.ValueIdx

/-- THE READ: position `(b, m)` of the gather is the operand at `(b, c)`, `c` the start `idx[b, m, 0]` read signed and
    clamped into `[0, C − 1]`. The batching axis carries the result's row `b`. -/
theorem gather_row_apply {α : Type} {B M C w : Nat} (d : GatherDims ⟨2, ![B, C]⟩ ⟨3, ![B, M, 1]⟩ ⟨2, ![B, M]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![B, C]⟩ : Shape).Idx → α) (idx : IVec ⟨3, ![B, M, 1]⟩ w) (b : Fin B) (m : Fin M) (hC : 0 < C) :
    Host.gather d x idx (ix2 b m)
      = x (ix2 b (⟨min (idx (ix3 b m (0 : Fin 1))).toInt.toNat (C - 1), by omega⟩ : Fin C)) := by
  -- with the six lists known, the dimension numbers are a literal record but for the slice sizes
  obtain ⟨od, cd, ob, sb, sm, iv, ss, wf⟩ := d
  dsimp only at hoff hcoll hob hsb hsim hivd
  subst hoff hcoll hob hsb hsim hivd
  unfold Host.gather
  congr 1
  funext a
  refine Fin.ext ?_
  simp only [GatherDims.operandIdx]
  match a with
  | ⟨0, _⟩ =>
    -- the batching axis: no start, no offset; the coordinate is the result's on the paired batch axis, `b`
    rw [GatherDims.start_batching _ _ _ _ List.mem_cons_self,
      GatherDims.offCoord_eq_zero _ _ _ (fun h => ((GatherDims.mem_sKept _ _).mp h).2 List.mem_cons_self),
      Nat.zero_add, Nat.add_zero]
    rfl
  | ⟨1, _⟩ =>
    -- the collapsed axis: the start is the entry `(b, m, 0)`, read signed, clamped to `C − 1` (the slice is one wide)
    have hsl : ss 1 = 1 :=
      GatherDims.slice_collapsed ⟨[], [1], [0], [0], [1], 2, ss, wf⟩ 1 List.mem_cons_self
    have hnb : (1 : Fin 2) ∉ ([0] : List (Fin 2)) := by decide
    rw [GatherDims.batchCoord_eq_zero _ _ _ hnb,
      GatherDims.offCoord_eq_zero _ _ _ (fun h => ((GatherDims.mem_sKept _ _).mp h).1 List.mem_cons_self)]
    simp only [Nat.add_zero]
    unfold GatherDims.start
    rw [dif_pos (by exact List.mem_cons_self)]
    show min (idx _).toInt.toNat (C - ss 1) = min (idx (ix3 b m (0 : Fin 1))).toInt.toNat (C - 1)
    rw [hsl]
    congr 3
    congr 1
    funext c
    refine Fin.ext ?_
    match c with
    | ⟨0, _⟩ => rfl
    | ⟨1, _⟩ => rfl
    | ⟨2, _⟩ => rfl

/-- THE READ IN RANGE: when the start `idx[b, m, 0]`, read signed, is a column `k` of the operand, the clamp is the
    identity and position `(b, m)` of the gather is the operand at `(b, k)`. -/
theorem gather_row_apply_of_lt {α : Type} {B M C w : Nat}
    (d : GatherDims ⟨2, ![B, C]⟩ ⟨3, ![B, M, 1]⟩ ⟨2, ![B, M]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![B, C]⟩ : Shape).Idx → α) (idx : IVec ⟨3, ![B, M, 1]⟩ w) (b : Fin B) (m : Fin M) (k : Fin C)
    (hk : (idx (ix3 b m (0 : Fin 1))).toInt = (k.val : ℤ)) :
    Host.gather d x idx (ix2 b m) = x (ix2 b k) := by
  have hC : 0 < C := Nat.lt_of_le_of_lt (Nat.zero_le _) k.isLt
  rw [gather_row_apply d hoff hcoll hob hsb hsim hivd x idx b m hC]
  have e : (⟨min (idx (ix3 b m (0 : Fin 1))).toInt.toNat (C - 1), by omega⟩ : Fin C) = k := by
    apply Fin.ext
    show min (idx (ix3 b m (0 : Fin 1))).toInt.toNat (C - 1) = k.val
    rw [hk, Int.toNat_natCast]
    have := k.isLt
    omega
  rw [e]

end Idealize.ShloMosaic.LibGatherRow

end
-- ==== Proof.RefValue.lean ====
/-
  The reference's value. Its logits are the matrix product of the hidden states with the transposed weights plus the
  broadcast bias; `take_along_axis` then wraps a negative index by 1880, tests the wrapped index against [0, 1879],
  gathers one logit per (row, move) and puts NaN where the test fails. For index words in [0, 1880) nothing is wrapped,
  the test passes everywhere and the gathered logit is the one at the word's position.
-/
import proofs.«406982_j87101936763294_1_alg».proof.Proof.RefRead
import proofs.«406982_j87101936763294_1_alg».proof.Proof.Spec
import proofs.«406982_j87101936763294_1_alg».proof.Proof.LibGatherLast
import proofs.«406982_j87101936763294_1_alg».proof.Proof.LibGatherRow
import Idealize.ShloMosaic.Lib.StableHlo.Predicate

noncomputable section

namespace Cert.ReferenceIdeal.Hand

open Cert.ReferenceIdeal Cert.ReferenceIdeal.Gen Cert.ReferenceIdeal.ReadP Idealize.ShloMosaic Idealize.ShloMosaic.TcCoe Idealize.SL.Sem
open Idealize.ShloMosaic.ValueIdx Idealize.ShloMosaic.StableHlo.Predicate

/-! ## An index word in [0, 1880) under the signed compares

Such a word is below 2³¹, so read signed it is its own unsigned value: it is not below 0, it is at least 0, it is at most
1879. -/

/-- The word is not negative: the signed "less than 0" bit is 0. -/
theorem slt_zero_of_lt {w : BitVec 32} (hw : w.toNat < 1880) : IntOp.cmpi .slt w 0#32 = 0#1 := by
  apply eq_zero_of_ne_one
  intro h
  have h' := (slt_iff_toNat (a := w) (b := 0#32) (by omega) (by decide)).1 h
  exact Nat.not_lt_zero _ h'

/-- The signed "at least 0" bit is 1. -/
theorem sge_zero_of_lt {w : BitVec 32} (hw : w.toNat < 1880) : IntOp.cmpi .sge w 0#32 = 1#1 :=
  (sge_iff_toNat (a := w) (b := 0#32) (by omega) (by decide)).2 (Nat.zero_le _)

/-- The signed "at most 1879" bit is 1. -/
theorem sle_top_of_lt {w : BitVec 32} (hw : w.toNat < 1880) : IntOp.cmpi .sle w 1879#32 = 1#1 :=
  (sle_iff_toNat (a := w) (b := 1879#32) (by omega) (by decide)).2 (by
    show w.toNat ≤ 1879
    omega)

/-- Read signed, the word is its unsigned value. -/
theorem toInt_of_lt {w : BitVec 32} (hw : w.toNat < 1880) : w.toInt = (w.toNat : ℤ) :=
  toInt_eq_toNat_of_lt (by omega)

/-! ## The index side of `take_along_axis`, one operation at a time -/

section Index

variable (x3 : (⟨S16384x128, .i32⟩ : BufTy).Contents (Elt Ideal)) (hr : ∀ i : S16384x128.Idx, (x3 i).toNat < 1880)
include hr

/-- No index is negative: the wrap test `idx < 0` is 0 everywhere. -/
theorem v1_eq (i : S16384x128.Idx) : val_main_call0_v1 (F := Ideal) x3 i = 0#1 := by
  rw [val_main_call0_v1_apply, val_main_call0_v0_apply, val_main_call0_c_apply]
  exact slt_zero_of_lt (hr i)

/-- So the wrapped index is the index itself: the select takes its second branch. -/
theorem v4_eq (i : S16384x128.Idx) : val_main_call0_v4 (F := Ideal) x3 i = x3 i := by
  rw [val_main_call0_v4_apply, v1_eq x3 hr i, select_zero]

/-- The reshape to [16384, 128, 1] keeps the row-major position: entry `(b, q, 0)` is the word at `(b, q)`,
    since `((128 b + q) · 1 + 0)` divided by 128 is `b` with remainder `q`. -/
theorem v5_eq (b : Fin 16384) (q : Fin 128) :
    val_main_call0_v5 (F := Ideal) x3 (ix3 b q (0 : Fin 1)) = x3 (ix2 b q) := by
  rw [val_main_call0_v5_apply, v4_eq x3 hr]
  congr 1
  funext a
  refine Fin.ext ?_
  have hb := b.isLt
  have hq := q.isLt
  match a with
  | ⟨0, _⟩ =>
    show ((b.val * 128 + q.val) * 1 + 0) / 128 = b.val
    omega
  | ⟨1, _⟩ =>
    show ((b.val * 128 + q.val) * 1 + 0) % 128 = q.val
    omega

/-- The lower range test `0 ≤ idx` passes. -/
theorem v7_eq (b : Fin 16384) (q : Fin 128) : val_main_call0_v7 (F := Ideal) x3 (ix3 b q (0 : Fin 1)) = 1#1 := by
  rw [val_main_call0_v7_apply, v5_eq x3 hr, val_main_call0_v6_apply, val_main_call0_c_2_apply]
  exact sge_zero_of_lt (hr _)

/-- The upper range test `idx ≤ 1879` passes. -/
theorem v10_eq (b : Fin 16384) (q : Fin 128) : val_main_call0_v10 (F := Ideal) x3 (ix3 b q (0 : Fin 1)) = 1#1 := by
  rw [val_main_call0_v10_apply, v5_eq x3 hr, val_main_call0_v9_apply, val_main_call0_v8_apply,
    val_main_call0_c_1_apply]
  exact sle_top_of_lt (hr _)

/-- Both tests pass at every entry of the [16384, 128, 1] array (its last coordinate can only be 0). -/
theorem v11_eq (i : S16384x128x1.Idx) : val_main_call0_v11 (F := Ideal) x3 i = 1#1 := by
  obtain ⟨b, q, z, rfl⟩ : ∃ (b : Fin 16384) (q : Fin 128) (z : Fin 1), i = ix3 b q z := ⟨i 0, i 1, i 2, eq_ix3 i⟩
  obtain rfl : z = 0 := Subsingleton.elim _ _
  rw [val_main_call0_v11_apply, v7_eq x3 hr, v10_eq x3 hr]
  exact IntOp.andi_eq_one.2 ⟨rfl, rfl⟩

/-- The and-reduction over the last axis, from `true`, of an array of ones is one: the index is in range everywhere. -/
theorem v12_eq (i : S16384x128.Idx) : val_main_call0_v12 (F := Ideal) x3 i = 1#1 := by
  unfold val_main_call0_v12
  exact LibGatherLast.reduce_andi_one_of_forall _ _ _ _ (v11_eq x3 hr) (fun k => rfl) i

/-- The gather reads, in row `b`, the logit at the column the word `idx[b, q]` names: its start index is that word,
    which read signed is a column of the operand, so the clamp into [0, 1879] leaves it. -/
theorem v13_eq (x0 : (⟨S16384x1024, .f32⟩ : BufTy).Contents (Elt Ideal)) (x1 : (⟨S1880x1024, .f32⟩ : BufTy).Contents (Elt Ideal))
    (x2 : (⟨S1880, .f32⟩ : BufTy).Contents (Elt Ideal)) (b : Fin 16384) (q : Fin 128) :
    val_main_call0_v13 (F := Ideal) x0 x1 x2 x3 (ix2 b q)
      = val_main_v4 (F := Ideal) x0 x1 x2 (ix2 b (⟨(x3 (ix2 b q)).toNat, hr _⟩ : Fin 1880)) := by
  unfold val_main_call0_v13
  refine LibGatherRow.gather_row_apply_of_lt gather_S16384x1880_S16384x128x1_S16384x128_n_1_0_0_1_2_11
    rfl rfl rfl rfl rfl rfl _ _ b q ⟨(x3 (ix2 b q)).toNat, hr _⟩ ?_
  rw [v5_eq x3 hr]
  exact toInt_of_lt (hr _)

end Index

/-! ## The logits -/

/-- Entry `(b, n)` of the full logits: the product of the hidden states with the transposed weights read at `(b, n)` is
    the inner product of row `b` of the hidden states with row `n` of the weights, and the twice-broadcast bias read
    there is the bias of `n`. -/
theorem v4_logit (x0 : (⟨S16384x1024, .f32⟩ : BufTy).Contents (Elt Ideal)) (x1 : (⟨S1880x1024, .f32⟩ : BufTy).Contents (Elt Ideal))
    (x2 : (⟨S1880, .f32⟩ : BufTy).Contents (Elt Ideal)) (b : Fin 16384) (n : Fin 1880) :
    val_main_v4 (F := Ideal) x0 x1 x2 (ix2 b n) = Cert.Spec.logit x0 x1 x2 b n := by
  rw [val_main_v4_apply, val_main_v1_apply, val_main_v3_apply, val_main_v2_apply]
  unfold Cert.Spec.logit
  show (∑ k : Fin 1024, x0 (lidx_main_v1 (ix2 b n) k) * val_main_v0 (F := Ideal) x1 (ridx_main_v1 (ix2 b n) k))
      + x2 (idx_main_v2 (idx_main_v3 (ix2 b n))) = _
  congr 1
  · refine Finset.sum_congr rfl fun k _ => ?_
    rw [val_main_v0_apply]
    have e0 : lidx_main_v1 (ix2 b n) k = ix2 b k := funext fun a => Fin.ext (by
      match a with
      | ⟨0, _⟩ => rfl
      | ⟨1, _⟩ => rfl)
    have e1 : idx_main_v0 (ridx_main_v1 (ix2 b n) k) = ix2 n k := funext fun a => Fin.ext (by
      match a with
      | ⟨0, _⟩ => rfl
      | ⟨1, _⟩ => rfl)
    rw [e0, e1]
  · have e2 : idx_main_v2 (idx_main_v3 (ix2 b n)) = ix1 n := funext fun a => Fin.ext (by
      match a with
      | ⟨0, _⟩ => rfl)
    rw [e2]

/-! ## The result -/

/-- With every index word in [0, 1880) the reference's result is the selected-logit function of its arguments. -/
theorem ref_eq (x0 : (⟨S16384x1024, .f32⟩ : BufTy).Contents (Elt Ideal)) (x1 : (⟨S1880x1024, .f32⟩ : BufTy).Contents (Elt Ideal))
    (x2 : (⟨S1880, .f32⟩ : BufTy).Contents (Elt Ideal)) (x3 : (⟨S16384x128, .i32⟩ : BufTy).Contents (Elt Ideal))
    (hr : ∀ i : S16384x128.Idx, (x3 i).toNat < 1880) :
    val_main_v5 (F := Ideal) x0 x1 x2 x3 = Cert.Spec.G x0 x1 x2 x3 := by
  funext i
  obtain ⟨b, q, rfl⟩ : ∃ (b : Fin 16384) (q : Fin 128), i = ix2 b q := ⟨i 0, i 1, eq_ix2 i⟩
  -- the range test is 1, so the select takes the gathered logit, which is the one the word names
  rw [val_main_v5_apply, v12_eq x3 hr, select_one, v13_eq x3 hr, v4_logit, Cert.Spec.G_apply,
    Cert.Spec.pick_of_lt _ _ (hr _)]

end Cert.ReferenceIdeal.Hand

end
-- ==== Proof.PreRange.lean ====
/-
  The index range out of the precondition. The precondition is the conjunction of four all-reductions; the fourth says
  that every index word, read signed, is at least 0 and below 1880, so read unsigned it is below 1880.
-/
import proofs.«406982_j87101936763294_1_alg».proof.Pre_finite_inputs
import Idealize.ShloMosaic.Lib.ReduceAll
import Idealize.ShloMosaic.Lib.StableHlo.Predicate

noncomputable section

namespace Cert.Pre_finite_inputs.Hand

open Cert.Pre_finite_inputs Idealize.ShloMosaic

/-- The result shape of an all-reduction has one index. -/
theorem subsingleton_scalar_idx : Subsingleton S_.Idx := ⟨fun a b => funext fun d => d.elim0⟩

/-- A word that is at least 0 and below 1880 read signed is below 1880 read unsigned. -/
theorem toNat_lt_of_signed (w : BitVec 32) (h0 : IntOp.cmpi .sge w 0#32 = 1#1) (h1 : IntOp.cmpi .slt w 1880#32 = 1#1) :
    w.toNat < 1880 := by
  rw [IntOp.cmpi_sge] at h0
  rw [IntOp.cmpi_slt] at h1
  have e0 : (0#32 : BitVec 32).toInt = 0 := by decide
  have e1 : (1880#32 : BitVec 32).toInt = 1880 := by decide
  rw [e0] at h0
  rw [e1] at h1
  have hw := w.isLt
  rw [BitVec.toInt_eq_toNat_cond] at h0 h1
  by_cases hc : 2 * w.toNat < 2 ^ 32
  · rw [if_pos hc] at h1
    omega
  · rw [if_neg hc] at h0
    omega

/-- Under the precondition every index word is below 1880. -/
theorem idx_lt_of_pre {F : FTy → Type} [FloatOps F] [Cert.Pre_finite_inputs.Facts] (a0 : FVec F S16384x1024 .f32) (a1 : FVec F S1880x1024 .f32)
    (a2 : FVec F S1880 .f32) (a3 : IVec S16384x128 32)
    (h : Cert.Pre_finite_inputs.fn (F := F) a0 a1 a2 a3 = fun _ => 1#1) : ∀ i : S16384x128.Idx, (a3 i).toNat < 1880 := by
  intro i
  -- the precondition at its one index: a conjunction whose last conjunct is the all-reduction over the index words
  have e := congrFun h (fun a => a.elim0)
  dsimp only [Cert.Pre_finite_inputs.fn, Cert.Pre_finite_inputs.fn_part1] at e
  have e4 := (IntOp.andi_eq_one.1 e).2
  -- the all-reduction is 1, so its operand is 1 at `i`: both comparisons of the word at `i` hold
  haveI := subsingleton_scalar_idx
  have ei := Host.reduce_andi_all _ _ _ _ _ e4 i
  have ec := IntOp.andi_eq_one.1 ei
  -- a scalar constant broadcast over the array reads the constant at `i`
  exact toNat_lt_of_signed (a3 i) ec.1 ec.2

end Cert.Pre_finite_inputs.Hand

end
-- ==== Proof.lean ====
/-
  Both programs compute, for every batch row `b` and move `q`, the logit of row `b` at the output that the index word
  `idx[b, q]` names, where the logit of row `b` at output `n` is `∑ₖ hidden[b, k] · weights[n, k] + biases[n]`.

  The kernel never gathers. For each of the 128 moves it compares the index column with a position counter, keeps the
  logits where they agree, puts zero elsewhere and sums the row: on the extended reals a row with one kept entry and
  zeros sums to that entry (adding zero changes no extended real, so no finiteness is used), and a row with no kept
  entry sums to zero. Its matrix product rounds the operands to bf16 first, which is the identity on the extended reals.
  The reference forms all the logits, wraps a negative index by 1880, gathers where the wrapped index is in [0, 1879]
  and answers NaN elsewhere. The two agree exactly when every index word is in [0, 1880): a negative word makes the
  reference read another output while the kernel's row sum is empty, and a word from 1880 on makes the reference answer
  its NaN. That range is the added conjunct of the precondition, and it is the only part of the precondition the proof uses.

  The common value is `Cert.Spec.G` (the selection written as a sum over the 1880 positions). The kernel's stored block
  is that function of its input blocks (KernelCol, KernelStore), its 64 blocks are the rows of that function of the whole
  arrays and cover the result (KernelArray); the reference's result is the same function when the words are in range
  (RefValue, with the gather read at an index in LibGatherRow), and the range comes out of the precondition (PreRange).
  The reference's run and its read-at-an-index lemmas are the generated modules, in patched copies (RefRun, RefRead).
  The idealization rewrote nothing, so `preserves` is trivial, and the two kernel frames are the generated ones.
-/
import proofs.«406982_j87101936763294_1_alg».proof.Defs
import proofs.«406982_j87101936763294_1_alg».proof.Proof.Gen.Kernel
import proofs.«406982_j87101936763294_1_alg».proof.Proof.Gen.Kernel.Frame
import proofs.«406982_j87101936763294_1_alg».proof.Proof.Gen.KernelIdeal
import proofs.«406982_j87101936763294_1_alg».proof.Proof.Gen.KernelIdeal.Frame
import proofs.«406982_j87101936763294_1_alg».proof.Proof.Gen.ReferenceIdeal
import proofs.«406982_j87101936763294_1_alg».proof.Proof.Gen.Pre_finite_inputs
import proofs.«406982_j87101936763294_1_alg».proof.Proof.KernelArray
import proofs.«406982_j87101936763294_1_alg».proof.Proof.RefRun
import proofs.«406982_j87101936763294_1_alg».proof.Proof.RefRead
import proofs.«406982_j87101936763294_1_alg».proof.Proof.RefValue
import proofs.«406982_j87101936763294_1_alg».proof.Proof.PreRange
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the four arguments both runs end with the selected logits of those arguments: the
    kernel's by its blocks, the reference's because the precondition keeps every index word in [0, 1880). -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v5_eq, (hagree c).1, (hagree c).2.1, (hagree c).2.2.1, (hagree c).2.2.2]
  exact Cert.ReferenceIdeal.Hand.ref_eq _ _ _ _ (Cert.Pre_finite_inputs.Hand.idx_lt_of_pre _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
